-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : FVec F S512x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S512x128 : Shape := ⟨2, ![512, 128]⟩
abbrev S512x1x128 : Shape := ⟨3, ![512, 1, 128]⟩
abbrev S1x512x128 : Shape := ⟨3, ![1, 512, 128]⟩
abbrev S512x512x128 : Shape := ⟨3, ![512, 512, 128]⟩
abbrev S_ : Shape := ⟨0, ![]⟩
abbrev S512x512 : Shape := ⟨2, ![512, 512]⟩
abbrev S1x1 : Shape := ⟨2, ![1, 1]⟩
abbrev S32x128 : Shape := ⟨2, ![32, 128]⟩
abbrev S32x512 : Shape := ⟨2, ![32, 512]⟩
abbrev S32x128x1 : Shape := ⟨3, ![32, 128, 1]⟩
abbrev S32x1x512 : Shape := ⟨3, ![32, 1, 512]⟩
abbrev S32x128x512 : Shape := ⟨3, ![32, 128, 512]⟩
abbrev S32 : Shape := ⟨1, ![32]⟩
abbrev S32x1 : Shape := ⟨2, ![32, 1]⟩
abbrev S1 : Shape := ⟨1, ![1]⟩

abbrev nBuf : Space → Nat
  | .hbm => 22
  | .vmem => 5
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x1x128, .f32⟩
  | .hbm, ⟨3, _⟩ => ⟨S1x512x128, .f32⟩
  | .hbm, ⟨4, _⟩ => ⟨S512x512x128, .f32⟩
  | .hbm, ⟨5, _⟩ => ⟨S512x512x128, .f32⟩
  | .hbm, ⟨6, _⟩ => ⟨S512x512x128, .f32⟩
  | .hbm, ⟨7, _⟩ => ⟨S512x512x128, .f32⟩
  | .hbm, ⟨8, _⟩ => ⟨S_, .f32⟩
  | .hbm, ⟨9, _⟩ => ⟨S512x512, .f32⟩
  | .hbm, ⟨10, _⟩ => ⟨S512x1x128, .f32⟩
  | .hbm, ⟨11, _⟩ => ⟨S1x512x128, .f32⟩
  | .hbm, ⟨12, _⟩ => ⟨S512x512x128, .f32⟩
  | .hbm, ⟨13, _⟩ => ⟨S512x512x128, .f32⟩
  | .hbm, ⟨14, _⟩ => ⟨S512x512x128, .f32⟩
  | .hbm, ⟨15, _⟩ => ⟨S512x512x128, .f32⟩
  | .hbm, ⟨16, _⟩ => ⟨S_, .f32⟩
  | .hbm, ⟨17, _⟩ => ⟨S512x512, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S32x128, .f32⟩
  | .local _ .vmem, ⟨1, _⟩ => ⟨S32x128, .f32⟩
  | .local _ .vmem, ⟨2, _⟩ => ⟨S32x512, .f32⟩
  | .local _ .vmem, ⟨3, _⟩ => ⟨S32x512, .f32⟩
  | .local _ .vmem, ⟨4, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  reducesTo_S512x512x128_S512x512_d2 : S512x512x128.ReducesTo [2] S512x512
  h_S_ : 0 < S_.numel
  inb_S1x1_S1x1_0_0 : ∀ a, (![0, 0] : Fin 2 → Nat) a + S1x1.size a ≤ S1x1.size a
  h_S1x1 : 0 < S1x1.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S32x128_S32x128x1 : S32x128.ShapeCasts S32x128x1
  shapeCasts_S32x512_S32x1x512 : S32x512.ShapeCasts S32x1x512
  broadcasts_S32x128x1_S32x128x512 : S32x128x1.Broadcasts S32x128x512
  broadcasts_S32x1x512_S32x128x512 : S32x1x512.Broadcasts S32x128x512
  reduces_S32x128x512_S32x128 : S32x128x512.Reduces [2] S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S512x512.size a
  hwx0_0 : ∀ i : grid0.Coords, EltTy.bits .f32 = 32 ∨ (Rect.block (s := S512x512) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S512x512.size a
  hwx0_1 : ∀ i : grid0.Coords, EltTy.bits .f32 = 32 ∨ (Rect.block (s := S512x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v6) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128 : Shape := ⟨2, ![512, 128]⟩
abbrev S512x1x128 : Shape := ⟨3, ![512, 1, 128]⟩
abbrev S1x512x128 : Shape := ⟨3, ![1, 512, 128]⟩
abbrev S512x512x128 : Shape := ⟨3, ![512, 512, 128]⟩
abbrev S_ : Shape := ⟨0, ![]⟩
abbrev S512x512 : Shape := ⟨2, ![512, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 31
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x1x128, .f32⟩
  | .hbm, ⟨3, _⟩ => ⟨S1x512x128, .f32⟩
  | .hbm, ⟨4, _⟩ => ⟨S512x512x128, .f32⟩
  | .hbm, ⟨5, _⟩ => ⟨S512x512x128, .f32⟩
  | .hbm, ⟨6, _⟩ => ⟨S512x512x128, .f32⟩
  | .hbm, ⟨7, _⟩ => ⟨S512x512x128, .f32⟩
  | .hbm, ⟨8, _⟩ => ⟨S_, .f32⟩
  | .hbm, ⟨9, _⟩ => ⟨S512x512, .f32⟩
  | .hbm, ⟨10, _⟩ => ⟨S512x1x128, .f32⟩
  | .hbm, ⟨11, _⟩ => ⟨S1x512x128, .f32⟩
  | .hbm, ⟨12, _⟩ => ⟨S512x512x128, .f32⟩
  | .hbm, ⟨13, _⟩ => ⟨S512x512x128, .f32⟩
  | .hbm, ⟨14, _⟩ => ⟨S512x512x128, .f32⟩
  | .hbm, ⟨15, _⟩ => ⟨S512x512x128, .f32⟩
  | .hbm, ⟨16, _⟩ => ⟨S_, .f32⟩
  | .hbm, ⟨17, _⟩ => ⟨S512x512, .f32⟩
  | .hbm, ⟨18, _⟩ => ⟨S512x512x1, .f32⟩
  | .hbm, ⟨19, _⟩ => ⟨S512x1x512, .f32⟩
  | .hbm, ⟨20, _⟩ => ⟨S512x512x512, .f32⟩
  | .hbm, ⟨21, _⟩ => ⟨S512x512x512, .f32⟩
  | .hbm, ⟨22, _⟩ => ⟨S512x512x512, .f32⟩
  | .hbm, ⟨23, _⟩ => ⟨S512x512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x512x512, .f32⟩
  | .hbm, ⟨28, _⟩ => ⟨S_, .f32⟩
  | .hbm, ⟨29, _⟩ => ⟨S_, .f32⟩
  | .hbm, ⟨30, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  reducesTo_S512x512x128_S512x512_d2 : S512x512x128.ReducesTo [2] S512x512
  h_S_ : 0 < S_.numel
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  reducesTo_S512x512x512_S_d0_1_2 : S512x512x512.ReducesTo [0, 1, 2] S_

variable [Facts₀]

class Facts : Prop extends Facts₀ where

variable [Facts]
-- ==== Proof.GwAlgebra.lean ====
/-
  The arithmetic of the triple sum, on the extended reals, with no program in sight.

  For two 512 × 512 matrices A and B the quantity is
      total A B = ∑ i, ∑ j, ∑ k, (A i j - B i k)²
  One side computes it as ONE sum over the cube of (|A i j - B i k|)², the other as 64 partial
  sums, one per 32 × 128 tile of A (tile (p, q) pairs rows 32p … 32p+31 and columns 128q … 128q+127 of A
  with the same rows and all 512 columns of B), added up tile after tile in row-major order of the tiles.
  Addition on the extended reals is commutative and associative, so the regrouping needs no
  finiteness; |x|·|x| = x·x holds at the infinities as well.
-/
import Idealize.ShloMosaic.PureOps.Ideal
import Idealize.ShloMosaic.PureOps.Ideal.Laws
import Idealize.ShloMosaic.Lib.ValueIdx

noncomputable section

namespace Cert.Gw

open Idealize.ShloMosaic Idealize.ShloMosaic.ValueIdx

/-! ## Sums over stretches and over a cube -/

/-- A sum over m·n consecutive positions is the sum over m stretches of n. -/
theorem sum_stretch {M : Type*} [AddCommMonoid M] (m n : ℕ) (f : Fin (m * n) → M) :
    ∑ i, f i = ∑ p : Fin m, ∑ q : Fin n, f (finProdFinEquiv (p, q)) :=
  (Fintype.sum_equiv finProdFinEquiv (fun x => f (finProdFinEquiv x)) f (fun _ => rfl)).symm.trans
    (Fintype.sum_prod_type _)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The squared gap and its sums -/

/-- The 512 × 512 index shape both matrices live on. -/
abbrev Mat : Shape := ⟨2, ![512, 512]⟩

/-- (A i j - B i k)². -/
def gap (A B : Mat.Idx → EReal) (i j k : Fin 512) : EReal :=
  (A (ix2 i j) - B (ix2 i k)) * (A (ix2 i j) - B (ix2 i k))

/-- The whole triple sum. -/
def total (A B : Mat.Idx → EReal) : EReal := ∑ i : Fin 512, ∑ j : Fin 512, ∑ k : Fin 512, gap A B i j k

/-- Row a of the p-th stretch of 32 rows. -/
def row (p : Fin 16) (a : Fin 32) : Fin 512 := ⟨a.val + 32 * p.val, by omega⟩
/-- Column b of the q-th stretch of 128 columns. -/
def col (q : Fin 4) (b : Fin 128) : Fin 512 := ⟨b.val + 128 * q.val, by omega⟩

/-- The partial sum of tile (p, q): its 32 rows, its 128 columns of A, all 512 columns of B. -/
def tileSum (A B : Mat.Idx → EReal) (p : Fin 16) (q : Fin 4) : EReal :=
  ∑ a : Fin 32, ∑ b : Fin 128, ∑ k : Fin 512, gap A B (row p a) (col q b) k

/-- The partial sum of the n-th tile in row-major order (tile (n / 4, n % 4)); nothing past the 64th. -/
def stepSum (A B : Mat.Idx → EReal) (n : ℕ) : EReal :=
  if h : n < 64 then tileSum A B ⟨n / 4, by omega⟩ ⟨n % 4, by omega⟩ else 0

/-- The running sum after tiles 0 … n. -/
def running (A B : Mat.Idx → EReal) (n : ℕ) : EReal := ∑ s ∈ Finset.range (n + 1), stepSum A B s

theorem running_zero (A B : Mat.Idx → EReal) : running A B 0 = tileSum A B 0 0 := by
  unfold running
  rw [Finset.sum_range_one]
  unfold stepSum
  rw [dif_pos (by decide)]
  rfl

theorem running_succ (A B : Mat.Idx → EReal) (n : ℕ) (h : n + 1 < 64) :
    running A B (n + 1) = running A B n + tileSum A B ⟨(n + 1) / 4, by omega⟩ ⟨(n + 1) % 4, by omega⟩ := by
  unfold running
  rw [Finset.sum_range_succ (fun s => stepSum A B s) (n + 1)]
  congr 1
  unfold stepSum
  rw [dif_pos h]

/-- The triple sum, tile by tile. -/
theorem total_eq_tiles (A B : Mat.Idx → EReal) : total A B = ∑ p : Fin 16, ∑ q : Fin 4, tileSum A B p q := by
  unfold total tileSum
  rw [sum_stretch 16 32 (fun i : Fin 512 => ∑ j : Fin 512, ∑ k : Fin 512, gap A B i j k)]
  refine Finset.sum_congr rfl fun p _ => ?_
  refine Eq.trans ?_ Finset.sum_comm
  refine Finset.sum_congr rfl fun a _ => ?_
  rw [sum_stretch 4 128 (fun j : Fin 512 => ∑ k : Fin 512, gap A B (finProdFinEquiv (p, a)) j k)]
  rfl

/-- After the last tile the running sum is the whole triple sum. -/
theorem running_last (A B : Mat.Idx → EReal) : running A B 63 = total A B := by
  rw [total_eq_tiles]
  unfold running
  rw [Finset.sum_range (fun s => stepSum A B s), sum_stretch 16 4 (fun t : Fin 64 => stepSum A B t.val)]
  refine Finset.sum_congr rfl fun p _ => Finset.sum_congr rfl fun q _ => ?_
  have hv : ((finProdFinEquiv (p, q) : Fin (16 * 4)) : ℕ) = q.val + 4 * p.val := rfl
  have hp := p.isLt
  have hq := q.isLt
  unfold stepSum
  rw [dif_pos (by rw [hv]; omega)]
  congr 1
  · exact Fin.ext (by show ((finProdFinEquiv (p, q) : Fin (16 * 4)) : ℕ) / 4 = p.val; rw [hv]; omega)
  · exact Fin.ext (by show ((finProdFinEquiv (p, q) : Fin (16 * 4)) : ℕ) % 4 = q.val; rw [hv]; omega)

/-! ## The absolute value squares away, and the scale -/

/-- |x|·|x| = x·x on the extended reals, the infinities included (|x| is max x (-x)). -/
theorem abs_mul_abs (x : EReal) : max x (-x) * max x (-x) = x * x := by
  rcases le_total x (-x) with h | h
  · rw [max_eq_right h, neg_mul_neg]
  · rw [max_eq_left h]

/-- The f32 word 0x36800000 is 2⁻¹⁸ = 1/262144 exactly. -/
theorem scale_word : Ideal.ofBits .f32 0x36800000#32 = ((1 / 262144 : ℝ) : EReal) := by
  simp [Ideal.ofBits, Ideal.ieee, -EReal.coe_mul]; norm_num

/-- The f32 words of 1.0 and 262144.0, divided on the extended reals, give the same 1/262144. -/
theorem scale_quotient :
    Ideal.div (Ideal.ofBits .f32 0x3F800000#32) (Ideal.ofBits .f32 0x48800000#32) = ((1 / 262144 : ℝ) : EReal) := by
  have h1 : Ideal.ofBits .f32 0x3F800000#32 = 1 := by
    simp [Ideal.ofBits, Ideal.ieee, -EReal.coe_mul]; norm_num
  have h2 : Ideal.ofBits .f32 0x48800000#32 = ((262144 : ℝ) : EReal) := by
    simp [Ideal.ofBits, Ideal.ieee, -EReal.coe_mul]; norm_num
  rw [h1, h2, Ideal.div_coe (by norm_num : (262144 : ℝ) ≠ 0), one_mul]

end Cert.Gw

end
-- ==== Proof.TilePayload.lean ====
/-
  What one grid point adds: the body's stored value, read at the one entry of its 1 × 1 block, on the extended reals.

  The body loads a 32 × 128 tile x of the first matrix and the 32 × 512 row block y of the second, forms the
  32 × 128 × 512 cube (x a b - y a k)², and sums it over k, then over b, then over a; the stored value is what
  the 1 × 1 accumulator held plus that sum.
-/
import proofs.«141309_j56573309223311_1_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Tile

open Cert.KernelIdeal Cert.KernelIdeal.Gen

/-! ## The layout steps, each read at an index -/

/-- A 32 × 128 tile cast to 32 × 128 × 1 reads, at (a, b, ·), the tile at (a, b). -/
theorem cast_tile (x : S32x128.Idx → EReal) (h : S32x128.ShapeCasts S32x128x1) (a : Fin 32) (b : Fin 128) (u : Fin 1) :
    shapeCast S32x128x1 x h (ix3 a b u) = x (ix2 a b) :=
  shapeCast_apply x h _ _ (by
    rw [Shape.rowMajor_val_two, Shape.rowMajor_val_three]
    show a.val * 128 + b.val = (a.val * 128 + b.val) * 1 + u.val
    omega)

/-- A 32 × 512 row block cast to 32 × 1 × 512 reads, at (a, ·, k), the block at (a, k). -/
theorem cast_rows (y : S32x512.Idx → EReal) (h : S32x512.ShapeCasts S32x1x512) (a : Fin 32) (u : Fin 1) (k : Fin 512) :
    shapeCast S32x1x512 y h (ix3 a u k) = y (ix2 a k) :=
  shapeCast_apply y h _ _ (by
    rw [Shape.rowMajor_val_two, Shape.rowMajor_val_three]
    show a.val * 512 + k.val = (a.val * 1 + u.val) * 512 + k.val
    omega)

/-- The tile's column broadcast along the third axis: constant in k. -/
theorem spread_tile (v : S32x128x1.Idx → EReal) (h : S32x128x1.Broadcasts S32x128x512) (a : Fin 32) (b : Fin 128) (k : Fin 512) :
    broadcastTo S32x128x512 v h (ix3 a b k) = v (ix3 a b (0 : Fin 1)) :=
  broadcastTo_apply v h (ix3 a b k) (ix3 a b (0 : Fin 1)) fun ax => by
    match ax with
    | ⟨0, _⟩ => show a.val = if (32 : Nat) = 1 then 0 else a.val; rw [if_neg (by decide)]
    | ⟨1, _⟩ => show b.val = if (128 : Nat) = 1 then 0 else b.val; rw [if_neg (by decide)]
    | ⟨2, _⟩ => show 0 = if (1 : Nat) = 1 then 0 else k.val; rw [if_pos rfl]

/-- The row block broadcast along the second axis: constant in b. -/
theorem spread_rows (v : S32x1x512.Idx → EReal) (h : S32x1x512.Broadcasts S32x128x512) (a : Fin 32) (b : Fin 128) (k : Fin 512) :
    broadcastTo S32x128x512 v h (ix3 a b k) = v (ix3 a (0 : Fin 1) k) :=
  broadcastTo_apply v h (ix3 a b k) (ix3 a (0 : Fin 1) k) fun ax => by
    match ax with
    | ⟨0, _⟩ => show a.val = if (32 : Nat) = 1 then 0 else a.val; rw [if_neg (by decide)]
    | ⟨1, _⟩ => show 0 = if (1 : Nat) = 1 then 0 else b.val; rw [if_pos rfl]
    | ⟨2, _⟩ => show k.val = if (512 : Nat) = 1 then 0 else k.val; rw [if_neg (by decide)]

/-- A length-32 vector cast to a 32 × 1 column reads, at (a, ·), the vector at a. -/
theorem cast_column (v : S32.Idx → EReal) (h : S32.ShapeCasts S32x1) (a : Fin 32) (u : Fin 1) :
    shapeCast S32x1 v h (ix2 a u) = v (ix1 a) :=
  shapeCast_apply v h _ _ (by
    rw [Shape.rowMajor_val_one, Shape.rowMajor_val_two]
    show a.val = a.val * 1 + u.val
    omega)

/-- A length-1 vector cast to 1 × 1 reads its one entry. -/
theorem cast_single (v : S1.Idx → EReal) (h : S1.ShapeCasts S1x1) (u u' : Fin 1) :
    shapeCast S1x1 v h (ix2 u u') = v (ix1 (0 : Fin 1)) :=
  shapeCast_apply v h _ _ (by
    rw [Shape.rowMajor_val_one, Shape.rowMajor_val_two]
    show 0 = u.val * 1 + u'.val
    omega)

/-! ## The three lane sums -/

/-- Summing the cube over its last axis. -/
theorem sum_k (v : FVec Ideal S32x128x512 .f32) (h : S32x128x512.Reduces [2] S32x128) (hφ : FKind.Formats .f32)
    (hacc : (0x00000000#32 : BitVec 32) = 0x00000000#32) (a : Fin 32) (b : Fin 128) :
    multiReduction .add [2] S32x128 v 0x00000000#32 h hφ hacc (ix2 a b) = ∑ k : Fin 512, v (ix3 a b k) := by
  refine (Ideal.multiReduction_add_single v 0x00000000#32 h hφ hacc (ix2 a b)).trans ?_
  refine Finset.sum_congr rfl fun k _ => congrArg v (funext fun c => Fin.ext ?_)
  match c with
  | ⟨0, _⟩ => rfl
  | ⟨1, _⟩ => rfl
  | ⟨2, _⟩ => rfl

/-- Summing a 32 × 128 array over its columns. -/
theorem sum_b (v : FVec Ideal S32x128 .f32) (h : S32x128.Reduces [1] S32) (hφ : FKind.Formats .f32)
    (hacc : (0x00000000#32 : BitVec 32) = 0x00000000#32) (a : Fin 32) :
    multiReduction .add [1] S32 v 0x00000000#32 h hφ hacc (ix1 a) = ∑ b : Fin 128, v (ix2 a b) := by
  refine (Ideal.multiReduction_add_single v 0x00000000#32 h hφ hacc (ix1 a)).trans ?_
  refine Finset.sum_congr rfl fun k _ => congrArg v (funext fun c => Fin.ext ?_)
  match c with
  | ⟨0, _⟩ => rfl
  | ⟨1, _⟩ => rfl

/-- Summing a 32 × 1 column over its rows. -/
theorem sum_a (v : FVec Ideal S32x1 .f32) (h : S32x1.Reduces [0] S1) (hφ : FKind.Formats .f32)
    (hacc : (0x00000000#32 : BitVec 32) = 0x00000000#32) (u : Fin 1) :
    multiReduction .add [0] S1 v 0x00000000#32 h hφ hacc (ix1 u) = ∑ a : Fin 32, v (ix2 a (0 : Fin 1)) := by
  refine (Ideal.multiReduction_add_single v 0x00000000#32 h hφ hacc (ix1 u)).trans ?_
  refine Finset.sum_congr rfl fun k _ => congrArg v (funext fun c => Fin.ext ?_)
  match c with
  | ⟨0, _⟩ => rfl
  | ⟨1, _⟩ => show (u : ℕ) = 0; omega

/-! ## The stored value -/

/-- The stored value at its one entry: what the accumulator held plus the tile's triple sum. -/
theorem stored (x : Vec Ideal S32x128 .f32) (y : Vec Ideal S32x512 .f32) (acc : Vec Ideal S1x1 .f32) :
    k0_pay2 (F := Ideal) x y acc (ix2 (0 : Fin 1) (0 : Fin 1))
      = acc (ix2 (0 : Fin 1) (0 : Fin 1))
        + ∑ a : Fin 32, ∑ b : Fin 128, ∑ k : Fin 512, (x (ix2 a b) - y (ix2 a k)) * (x (ix2 a b) - y (ix2 a k)) := by
  unfold k0_pay2
  rw [addf_apply, shapeCast_self, cast_single, sum_a]
  refine congrArg (acc (ix2 (0 : Fin 1) (0 : Fin 1)) + ·) (Finset.sum_congr rfl fun a _ => ?_)
  rw [cast_column, sum_b]
  refine Finset.sum_congr rfl fun b _ => ?_
  rw [sum_k]
  refine Finset.sum_congr rfl fun k _ => ?_
  rw [mulf_apply, subf_apply, spread_tile, spread_rows, cast_tile, cast_rows, shapeCast_self, shapeCast_self]

end Cert.KernelIdeal.Tile

end
-- ==== Proof.TileValue.lean ====
/-
  The kernel's side of the value claim, on the extended reals.

  Grid point t (of 64, in row-major order of a 16 × 4 grid) is tile (t / 4, t % 4): it reads rows 32·(t/4) … of both
  512 × 512 matrices, columns 128·(t%4) … of the first and all columns of the second, and adds the tile's triple sum of
  squared gaps to a 1 × 1 accumulator that the first point clears. So after point n the accumulator holds the running
  sum over tiles 0 … n, after the last point the whole triple sum; the one write-back (after the last point) puts it in
  the 1 × 1 result array, and the lines after the call read that entry and scale it by 2⁻¹⁸.
-/
import proofs.«141309_j56573309223311_1_alg».proof.Proof.Gen.KernelIdeal.Frame
import proofs.«141309_j56573309223311_1_alg».proof.Proof.GwAlgebra
import proofs.«141309_j56573309223311_1_alg».proof.Proof.TilePayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

/-! ## What each case of the body leaves in the accumulator's buffer (any float values) -/

section Pieces
variable {F : FTy → Type} [FloatOps F]

theorem hz : (![0, 0] : Fin 2 → Nat) = fun _ => 0 := funext fun a => by fin_cases a <;> rfl

/-- Past the first point the body leaves the stored value over what the accumulator held. -/
theorem left_later (c : Dev nD) (i : grid0.Coords) (a2 : Memref sig .tc .vmem S32x128 .f32) (h2 : a2.IsWhole)
    (a3 : Memref sig .tc .vmem S32x512 .f32) (h3 : a3.IsWhole) (a4 : Memref sig .tc .vmem S1x1 .f32) (h4 : a4.IsWhole)
    (hc : ¬cond0_0 i) (x0 : Vec F S32x128 .f32) (x1 : Vec F S32x512 .f32) (xo : Vec F S1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S32x128) hz,
    View.ld_unit_zero (S := S32x512) hz, View.ld_unit_zero (S := S1x1) hz]

/-- At the first point the body clears the accumulator, reads the cleared value back, and leaves the stored value over it. -/
theorem left_first (c : Dev nD) (i : grid0.Coords) (a2 : Memref sig .tc .vmem S32x128 .f32) (h2 : a2.IsWhole)
    (a3 : Memref sig .tc .vmem S32x512 .f32) (h3 : a3.IsWhole) (a4 : Memref sig .tc .vmem S1x1 .f32) (h4 : a4.IsWhole)
    (hc : cond0_0 i) (x0 : Vec F S32x128 .f32) (x1 : Vec F S32x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S32x128) hz,
    View.ld_unit_zero (S := S32x512) hz]

end Pieces

/-! ## The blocks a point reads -/

variable (m : (ℓ : Loc nD τ sig) → Buf (Elt Ideal) ℓ) (ρ : Dev nD → PrngReg)

/-- The two 512 × 512 matrices as the call finds them. -/
abbrev matA (c : Dev nD) : Gw.Mat.Idx → EReal := V m c main_v6
abbrev matB (c : Dev nD) : Gw.Mat.Idx → EReal := V m c main_v13
/-- The tile of the first and the row block of the second that point t reads. -/
abbrev tileBlk (c : Dev nD) (t : Fin cfg0.N) : Vec Ideal S32x128 .f32 := iblk m c 0 t
abbrev rowBlk (c : Dev nD) (t : Fin cfg0.N) : Vec Ideal S32x512 .f32 := iblk m c 1 t

/-- Where the index maps put point t: block (t / 4, t % 4) of the first matrix, block (t / 4, 0) of the second. -/
theorem block_index : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, win0_0.index t (0 : Fin 2) = t.val / 4 ∧ win0_0.index t (1 : Fin 2) = t.val % 4
    ∧ win0_1.index t (0 : Fin 2) = t.val / 4 ∧ win0_1.index t (1 : Fin 2) = 0)

theorem tileBlk_apply (c : Dev nD) (t : Fin cfg0.N) (ht : t.val < 64) (a : Fin 32) (b : Fin 128) :
    tileBlk m c t (ix2 a b) = matA m c (ix2 (Gw.row ⟨t.val / 4, by omega⟩ a) (Gw.col ⟨t.val % 4, by omega⟩ b)) := by
  obtain ⟨h00, h01, -, -⟩ := block_index t
  show ((cfg0.win 0).blk t).view.read (Elt Ideal) (V m c (Pipeline.arrRef spec0 0)) (ix2 a b) = _
  rw [View.read_apply]
  show V m c main_v6 _ = V m c main_v6 _
  congr 1
  funext d
  apply Fin.ext
  match d with
  | ⟨0, _⟩ => show win0_0.index t 0 * 32 + 1 * a.val = a.val + 32 * (t.val / 4); rw [h00]; omega
  | ⟨1, _⟩ => show win0_0.index t 1 * 128 + 1 * b.val = b.val + 128 * (t.val % 4); rw [h01]; omega

theorem rowBlk_apply (c : Dev nD) (t : Fin cfg0.N) (ht : t.val < 64) (a : Fin 32) (k : Fin 512) :
    rowBlk m c t (ix2 a k) = matB m c (ix2 (Gw.row ⟨t.val / 4, by omega⟩ a) k) := by
  obtain ⟨-, -, h10, h11⟩ := block_index t
  show ((cfg0.win 1).blk t).view.read (Elt Ideal) (V m c (Pipeline.arrRef spec0 1)) (ix2 a k) = _
  rw [View.read_apply]
  show V m c main_v13 _ = V m c main_v13 _
  congr 1
  funext d
  apply Fin.ext
  match d with
  | ⟨0, _⟩ => show win0_1.index t 0 * 32 + 1 * a.val = a.val + 32 * (t.val / 4); rw [h10]; omega
  | ⟨1, _⟩ => show win0_1.index t 1 * 512 + 1 * k.val = k.val; rw [h11]; omega

/-- What point t stores, at the accumulator's one entry: what it held plus tile (t / 4, t % 4)'s sum. -/
theorem stored_tile (c : Dev nD) (t : Fin cfg0.N) (ht : t.val < 64) (acc : Vec Ideal S1x1 .f32) :
    k0_pay2 (F := Ideal) (tileBlk m c t) (rowBlk m c t) acc (ix2 (0 : Fin 1) (0 : Fin 1))
      = acc (ix2 (0 : Fin 1) (0 : Fin 1)) + Gw.tileSum (matA m c) (matB m c) ⟨t.val / 4, by omega⟩ ⟨t.val % 4, by omega⟩ := by
  refine (stored (tileBlk m c t) (rowBlk m c t) acc).trans (congrArg (acc (ix2 (0 : Fin 1) (0 : Fin 1)) + ·) ?_)
  unfold Gw.tileSum
  refine Finset.sum_congr rfl fun a _ => Finset.sum_congr rfl fun b _ => Finset.sum_congr rfl fun k _ => ?_
  rw [tileBlk_apply m c t ht, rowBlk_apply m c t ht]
  rfl

/-! ## The accumulator, point by point -/

/-- The accumulator's entry after point n is the running sum over tiles 0 … n: by induction on the point. The first
    point adds its tile to the cleared value 0; every later one adds its tile to what the point before left. -/
theorem acc_entry (c : Dev nD) (n : ℕ) : ∀ h : n < cfg0.N,
    outsAt0 m c n h (ix2 (0 : Fin 1) (0 : Fin 1)) = Gw.running (matA m c) (matB m c) n := by
  induction n with
  | zero =>
    intro h
    have h0 : (⟨0, h⟩ : Fin cfg0.N).val % 64 = 0 := rfl
    refine (congrFun (outsAt0_A m c ⟨0, h⟩ h0) (ix2 (0 : Fin 1) (0 : Fin 1))).trans ?_
    refine (congrFun (left_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) ((hcond0_0 ⟨0, h⟩).mpr h0) (iblk m c 0 ⟨0, h⟩) (iblk m c 1 ⟨0, h⟩))
      (ix2 (0 : Fin 1) (0 : Fin 1))).trans ?_
    refine (stored_tile m c ⟨0, h⟩ (show (0 : ℕ) < 64 by omega) (k0_pay1 (F := Ideal))).trans ?_
    rw [Gw.running_zero]
    refine (congrArg (· + _) (show k0_pay1 (F := Ideal) (ix2 (0 : Fin 1) (0 : Fin 1)) = 0 from Ideal.ofBits_zero_f32)).trans ?_
    rw [zero_add]
    exact congrArg₂ (Gw.tileSum (matA m c) (matB m c)) (Fin.ext (by simp)) (Fin.ext (by simp))
  | succ n ih =>
    intro h
    have hlt : n + 1 < 64 := lt_of_lt_of_eq h (show cfg0.N = 64 from N_0)
    have hB : ¬(⟨n + 1, h⟩ : Fin cfg0.N).val % 64 = 0 := by dsimp only; omega
    refine (congrFun (outsAt0_B m c ⟨n + 1, h⟩ hB) (ix2 (0 : Fin 1) (0 : Fin 1))).trans ?_
    refine (congrFun (left_later (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh)) (iblk m c 0 ⟨n + 1, h⟩)
      (iblk m c 1 ⟨n + 1, h⟩) (outsAt0 m c ((⟨n + 1, h⟩ : Fin cfg0.N).val - 1) (Nat.lt_of_le_of_lt (Nat.sub_le _ _) h)))
      (ix2 (0 : Fin 1) (0 : Fin 1))).trans ?_
    refine (stored_tile m c ⟨n + 1, h⟩ hlt _).trans ?_
    rw [Gw.running_succ _ _ n hlt]
    exact congrArg (· + _) (ih (Nat.lt_of_succ_lt h))

/-! ## The result array after the call, and the program's result -/

/-- The 1 × 1 result array after the call: its entry is the whole triple sum. -/
def callResult (c : Dev nD) : Buf (Elt Ideal) ((c : Thread nD τ).loc main_v14) := fun _ => Gw.total (matA m c) (matB m c)

/-- After the last point the accumulator's buffer is that array's contents (its one entry is (0, 0)). -/
theorem acc_last (c : Dev nD) (h : 63 < cfg0.N) : outsAt0 m c 63 h = callResult m c := by
  funext j
  have h0 : j 0 = (0 : Fin 1) := Fin.ext (Nat.lt_one_iff.mp (show (j 0).val < 1 from (j 0).isLt))
  have h1 : j 1 = (0 : Fin 1) := Fin.ext (Nat.lt_one_iff.mp (show (j 1).val < 1 from (j 1).isLt))
  have hj : j = ix2 (0 : Fin 1) (0 : Fin 1) := funext fun a => by
    match a with
    | ⟨0, _⟩ => exact h0
    | ⟨1, _⟩ => exact h1
  rw [hj, acc_entry m c 63 h, Gw.running_last]
  rfl

/-- The last of the 64 points. -/
theorem last_lt : 63 < cfg0.N := lt_of_lt_of_eq (by decide : 63 < 64) (show cfg0.N = 64 from N_0).symm
abbrev lastPt : Fin cfg0.N := ⟨63, last_lt⟩

/-- The one write-back, after the last point, writes it: every entry of the block it moves is the triple sum. -/
theorem flushed_last (c : Dev nD) (t : Fin cfg0.N) (hf : (cfg0.win 2).flush t = true) :
    (dats m 0 c).flushed 2 t = ((cfg0.win 2).blk t).view.read (Elt Ideal) (callResult m c) := by
  have hN : t.val < 64 := lt_of_lt_of_eq t.isLt (show cfg0.N = 64 from N_0)
  have h63 : t.val = 63 := by have := (flush0_2 t).mp hf; omega
  obtain rfl : t = lastPt := Fin.ext h63
  show (cfg0.win 2).cut (grid0.coords lastPt) ((dats m 0 c).after 2 lastPt) = _
  rw [after0_2, acc_last m c last_lt]
  rfl

/-- So the result array ends holding the triple sum: the last point's block is the whole 1 × 1 array. -/
theorem result_array (c : Dev nD) : (dats m 0 c).arrAt 2 cfg0.N = callResult m c :=
  (dats m 0 c).arrAt_eq_of_cover 2 (callResult m c) (flushed_last m c) fun i =>
    ⟨lastPt, (flush0_2 lastPt).mpr rfl, by
      show i ∈ ((View.whole main_v14).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPt 0 * win0_2.size 0 ≤ (i 0 : Nat) ∧ (i 0 : Nat) < win0_2.index lastPt 0 * win0_2.size 0 + win0_2.xsize (grid0.coords lastPt) 0
        rw [show win0_2.index lastPt 0 * win0_2.size 0 = 0 from by decide +kernel, show win0_2.xsize (grid0.coords lastPt) 0 = 1 from by decide +kernel]
        omega
      | ⟨1, _⟩ =>
        show win0_2.index lastPt 1 * win0_2.size 1 ≤ (i 1 : Nat) ∧ (i 1 : Nat) < win0_2.index lastPt 1 * win0_2.size 1 + win0_2.xsize (grid0.coords lastPt) 1
        rw [show win0_2.index lastPt 1 * win0_2.size 1 = 0 from by decide +kernel, show win0_2.xsize (grid0.coords lastPt) 1 = 1 from by decide +kernel]
        omega⟩

/-- The program's result: the triple sum times the f32 word of 2⁻¹⁸. -/
def programResult (c : Dev nD) : Buf (Elt Ideal) ((c : Thread nD τ).loc main_v16) :=
  fun _ => Gw.total (matA m c) (matB m c) * Ideal.ofBits .f32 0x36800000#32

/-- The lines after the call reshape the 1 × 1 array to a scalar and multiply it by the constant. -/
theorem tail_value (c : Dev nD) :
    Pipeline.afterTail₀ cfgs (dats m) 0 (V0 m) [hostOps1] c main_v16 = programResult m c := by
  unfold Pipeline.afterTail₀
  show StableHlo.after hostOps1 _ (Proc.devRef .tc main_v16) = _
  after_results
  rw [Pipeline.withArrays_arr spec0 launch0.win.arr_inj c _ _ 2, result_array]
  rfl

/-- The run, read: the result at the scaled triple sum, the arguments unchanged. -/
theorem run : θ_run defs (onTc (τ := τ) (main (F := Ideal))) ⟨m, fun _ => 0, ρ⟩ fun r => ∀ c : Dev nD,
      r.2.mem ((c.tc : Thread nD τ).loc main_v16) = programResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tile

end
-- ==== Proof.RefTotal.lean ====
/-
  The reference's side of the value claim, on the extended reals.

  The reference builds the whole 512³ cube of |A i j - B i k| (A and B the two pairwise squared-distance matrices), squares it,
  sums every entry at once from 0, and multiplies by the quotient 1.0 / 262144.0. Entry by entry the squared
  absolute value is the squared gap, the sum over the cube is the triple sum, and the quotient is 1/262144.
-/
import proofs.«141309_j56573309223311_1_alg».proof.Proof.Gen.ReferenceIdeal.Read
import proofs.«141309_j56573309223311_1_alg».proof.Proof.GwAlgebra
import Idealize.ShloMosaic.PureOps.Ideal.Laws
import Idealize.ShloMosaic.Lib.ValueIdx

noncomputable section

open Idealize.ShloMosaic Idealize.ShloMosaic.ValueIdx

namespace Cert.ReferenceIdeal.RefTotal

open Cert.ReferenceIdeal Cert.ReferenceIdeal.Gen Cert.ReferenceIdeal.Read

/-- One entry of the squared cube is the squared gap of the two matrices: the two broadcasts read A at (i, j) and B at
    (i, k), and |d|·|d| = d·d. -/
theorem cube_entry (x0 x1 : (⟨S512x128, .f32⟩ : BufTy).Contents (Elt Ideal)) (i j k : Fin 512) :
    val_main_v21 (F := Ideal) x0 x1 (ix3 i j k)
      = Gw.gap (val_main_v6 (F := Ideal) x0) (val_main_v13 (F := Ideal) x1) i j k := by
  rw [val_main_v21_apply, val_main_v19_apply, val_main_v18_apply, val_main_v16_apply, val_main_v17_apply,
    val_main_v14_apply, val_main_v15_apply]
  have eA : idx_main_v14 (idx_main_v16 (ix3 i j k)) = ix2 i j :=
    funext fun a => Fin.ext (by match a with | ⟨0, _⟩ => rfl | ⟨1, _⟩ => rfl)
  have eB : idx_main_v15 (idx_main_v17 (ix3 i j k)) = ix2 i k :=
    funext fun a => Fin.ext (by match a with | ⟨0, _⟩ => rfl | ⟨1, _⟩ => rfl)
  rw [eA, eB]
  simp only [Ideal.hostAbsf_def, Ideal.absf_def, Ideal.mulf_def, Ideal.subf_def]
  exact Gw.abs_mul_abs _

/-- The reference's result: the triple sum times 1/262144. -/
theorem value (x0 x1 : (⟨S512x128, .f32⟩ : BufTy).Contents (Elt Ideal)) (i : S_.Idx) :
    val_main_v23 (F := Ideal) x0 x1 i
      = Gw.total (val_main_v6 (F := Ideal) x0) (val_main_v13 (F := Ideal) x1) * ((1 / 262144 : ℝ) : EReal) := by
  rw [val_main_v23_apply, val_main_v22_apply, val_main_v20_apply, val_main_cst_1_apply, val_main_cst_2_apply,
    val_main_cst_3_apply]
  simp only [Ideal.mulf_def, Ideal.hostDivf_def, Ideal.ofBits_def]
  rw [Gw.scale_quotient, Ideal.ofBits_zero_f32, zero_add, Gw.sum_idx3]
  refine congrArg (· * _) ?_
  unfold Gw.total
  exact Finset.sum_congr rfl fun i _ => Finset.sum_congr rfl fun j _ => Finset.sum_congr rfl fun k _ => cube_entry x0 x1 i j k

end Cert.ReferenceIdeal.RefTotal

end
-- ==== Proof.lean ====
/-
  Both programs compute, from two 512 × 128 inputs, the two 512 × 512 matrices A and B of pairwise squared
  distances (the same host operations on both sides), and then
      (∑ i, ∑ j, ∑ k, (A i j - B i k)²) · 2⁻¹⁸.
  The kernel accumulates the triple sum tile by tile over a 16 × 4 grid into a 1 × 1 array and scales it after the
  call by the f32 constant 2⁻¹⁸; the reference sums (|A i j - B i k|)² over the whole cube at once and scales by the
  quotient 1.0 / 262144.0. On the extended reals the two agree: |x|·|x| = x·x, sums regroup freely, and both scales
  are the rational 1/262144. The precondition (finite inputs) is not needed for the value.
-/
import proofs.«141309_j56573309223311_1_alg».proof.Defs
import proofs.«141309_j56573309223311_1_alg».proof.Proof.Gen.Kernel
import proofs.«141309_j56573309223311_1_alg».proof.Proof.Gen.Kernel.Skeleton
import proofs.«141309_j56573309223311_1_alg».proof.Proof.Gen.Kernel.Launch
import proofs.«141309_j56573309223311_1_alg».proof.Proof.Gen.Kernel.Points
import proofs.«141309_j56573309223311_1_alg».proof.Proof.Gen.Kernel.Frame
import proofs.«141309_j56573309223311_1_alg».proof.Proof.Gen.KernelIdeal
import proofs.«141309_j56573309223311_1_alg».proof.Proof.Gen.KernelIdeal.Skeleton
import proofs.«141309_j56573309223311_1_alg».proof.Proof.Gen.KernelIdeal.Launch
import proofs.«141309_j56573309223311_1_alg».proof.Proof.Gen.KernelIdeal.Points
import proofs.«141309_j56573309223311_1_alg».proof.Proof.Gen.KernelIdeal.Frame
import proofs.«141309_j56573309223311_1_alg».proof.Proof.Gen.ReferenceIdeal
import proofs.«141309_j56573309223311_1_alg».proof.Proof.Gen.ReferenceIdeal.Run
import proofs.«141309_j56573309223311_1_alg».proof.Proof.Gen.ReferenceIdeal.Read
import proofs.«141309_j56573309223311_1_alg».proof.Proof.Gen.Pre_finite_inputs
import proofs.«141309_j56573309223311_1_alg».proof.Proof.GwAlgebra
import proofs.«141309_j56573309223311_1_alg».proof.Proof.TileValue
import proofs.«141309_j56573309223311_1_alg».proof.Proof.RefTotal
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-! ## The two distance matrices are the same functions of the inputs on both sides -/

section Matrices
open Cert.KernelIdeal Cert.KernelIdeal.Gen

variable (m : (ℓ : Loc nD τ sig) → Buf (Elt Ideal) ℓ)

/-- The first matrix the call finds is the reference's distance matrix of the first input. -/
theorem matA_eq (c : Dev nD) :
    Cert.KernelIdeal.Tile.matA m c
      = Cert.ReferenceIdeal.Read.val_main_v6 (F := Ideal) (m ((c.tc : Thread nD τ).loc main_arg0)) := by
  show StableHlo.after hostOps0 (fun b => m (c, b)) (Proc.devRef .tc main_v6) = _
  after_results
  rfl

/-- The second is the reference's distance matrix of the second input. -/
theorem matB_eq (c : Dev nD) :
    Cert.KernelIdeal.Tile.matB m c
      = Cert.ReferenceIdeal.Read.val_main_v13 (F := Ideal) (m ((c.tc : Thread nD τ).loc main_arg1)) := by
  show StableHlo.after hostOps0 (fun b => m (c, b)) (Proc.devRef .tc main_v13) = _
  after_results
  rfl

end Matrices

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the triple sum of squared gaps of the same two matrices times 1/262144. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Tile.programResult m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  funext i
  rw [Cert.ReferenceIdeal.RefTotal.value]
  show _ = Cert.Gw.total (Cert.KernelIdeal.Tile.matA m c) (Cert.KernelIdeal.Tile.matB m c) * Ideal.ofBits .f32 0x36800000#32
  rw [Cert.Gw.scale_word, matA_eq m c, matB_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
